-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S128x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S64x64 : Shape := ⟨2, ![64, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 29
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S64x64, .f32⟩
  | .hbm, ⟨24, _⟩ => ⟨S64x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S128x64_S64x64_0_0 : S128x64.Slices ![0, 0] S64x64
  slices_S128x64_S64x64_64_0 : S128x64.Slices ![64, 0] S64x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x128 : Shape := ⟨2, ![100000, 128]⟩
abbrev S1x64 : Shape := ⟨2, ![1, 64]⟩
abbrev S100000 : Shape := ⟨1, ![100000]⟩
abbrev S100000x1 : Shape := ⟨2, ![100000, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S100000x128, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S_, .i32⟩
  | .hbm, ⟨35, _⟩ => ⟨S_, .f32⟩
  | .hbm, ⟨36, _⟩ => ⟨S100000, .f32⟩
  | .hbm, ⟨37, _⟩ => ⟨S100000x1, .f32⟩
  | .hbm, ⟨38, _⟩ => ⟨S_, .f32⟩
  | .hbm, ⟨39, _⟩ => ⟨S100000x1, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000x1, .f32⟩
  | .hbm, ⟨50, _⟩ => ⟨S100000x1, .f32⟩
  | .hbm, ⟨51, _⟩ => ⟨S100000x1, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_cst_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_cst_1 : Ref sig .tc := ⟨.hbm, 45, rfl⟩
abbrev main_call0_v8 : Ref sig .tc := ⟨.hbm, 46, rfl⟩
abbrev main_call0_cst_2 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_cst_3 : Ref sig .tc := ⟨.hbm, 52, rfl⟩
abbrev main_call0_v13 : Ref sig .tc := ⟨.hbm, 53, rfl⟩
abbrev main_call0_cst_4 : Ref sig .tc := ⟨.hbm, 54, rfl⟩
abbrev main_call0_call0_v0 : Ref sig .tc := ⟨.hbm, 55, rfl⟩
abbrev main_call0_call0_v1 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_4 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RowNorm.lean ====
/-
  The mathematics both programs compute, one row at a time.

  A row of sixty-four extended reals `h` is centred on its mean `(∑ j, h j) / 64`, its variance is the mean of the
  squared deviations, and the normalized row is `(h q - mean) · (variance + ε)^(-1/2) · γ q + β q`, with `ε` the value
  of the single-precision word nearest `1e-5` and `64` the value of the word `0x42800000`. The row `h` itself is an
  affine map of two rows of sixty-four: `h q = ∑ k, x k · W (k, q) + ∑ k, n k · W (64 + k, q) + b q`, the product of the
  concatenated row `[x, n]` with a `128 × 64` matrix written as the sum of the products with its upper and lower halves.
-/
import Idealize.ShloMosaic.PureOps.Ideal
import Idealize.ShloMosaic.PureOps.Ideal.Laws
import Idealize.ShloMosaic.Lib.ValueIdx

noncomputable section

namespace Cert.RowNorm

open Idealize.ShloMosaic Idealize.ShloMosaic.ValueIdx
open scoped BigOperators

/-- The value of the word `0x42800000` (sixty-four). -/
abbrev c64 : EReal := Ideal.ofBits .f32 0x42800000#32
/-- The value of the word `0x3727C5AC` (the single-precision number nearest `1e-5`). -/
abbrev eps : EReal := Ideal.ofBits .f32 0x3727C5AC#32

/-- The mean of a row. -/
def mean (h : Fin 64 → EReal) : EReal := Ideal.div (∑ j : Fin 64, h j) c64

/-- The deviation of an entry from the row's mean. -/
def dev (h : Fin 64 → EReal) (q : Fin 64) : EReal := h q - mean h

/-- The variance of a row: the mean of the squared deviations. -/
def var (h : Fin 64 → EReal) : EReal := Ideal.div (∑ j : Fin 64, dev h j * dev h j) c64

/-- An entry's deviation scaled by the reciprocal square root of the variance plus `ε`. -/
def scaled (h : Fin 64 → EReal) (q : Fin 64) : EReal := dev h q * Ideal.rsqrt (var h + eps)

/-- The normalized row with its gain and offset. -/
def norm (h g be : Fin 64 → EReal) (q : Fin 64) : EReal := scaled h q * g q + be q

/-- The affine map of the two half rows `x` and `n`: the upper half of `W` meets `x`, the lower half `n`. -/
def lin (x n : Fin 64 → EReal) (W : (⟨2, ![128, 64]⟩ : Shape).Idx → EReal) (b : Fin 64 → EReal) (q : Fin 64) : EReal :=
  (∑ k : Fin 64, x k * W (ix2 (⟨k.val, by have := k.isLt; omega⟩ : Fin 128) q))
    + (∑ k : Fin 64, n k * W (ix2 (⟨64 + k.val, by have := k.isLt; omega⟩ : Fin 128) q)) + b q

/-- The whole result array: row `i` is the normalized affine image of row `i` of `x` and row `i` of `n`. -/
def G (x n : (⟨2, ![100000, 64]⟩ : Shape).Idx → EReal) (W : (⟨2, ![128, 64]⟩ : Shape).Idx → EReal)
    (b g be : (⟨1, ![64]⟩ : Shape).Idx → EReal) : (⟨2, ![100000, 64]⟩ : Shape).Idx → EReal := fun i =>
  norm (lin (fun k => x (ix2 (i 0 : Fin 100000) k)) (fun k => n (ix2 (i 0 : Fin 100000) k)) W (fun q => b (ix1 q)))
    (fun q => g (ix1 q)) (fun q => be (ix1 q)) (i 1 : Fin 64)

/-- The word `0x42800000` denotes the real number sixty-four. -/
theorem c64_eq : c64 = ((64 : ℝ) : EReal) := by
  simp [c64, Ideal.ofBits, Ideal.ieee, -EReal.coe_mul]; norm_num

/-- Sixty-four less the converted integer zero is positive: the comparison `64 - 0 > 0` is the one-bit word one. -/
theorem cmp_c64_pos : Ideal.cmp .ogt (c64 - (((0#32 : BitVec 32).toInt : ℝ) : EReal)) (Ideal.ofBits .f32 0x00000000#32) = 1#1 := by
  have h0 : (((0#32 : BitVec 32).toInt : ℝ) : EReal) = 0 := by
    rw [show (0#32 : BitVec 32).toInt = 0 from by decide]; simp
  rw [h0, sub_zero, Ideal.ofBits_zero_f32, c64_eq]
  have : (0 : EReal) < ((64 : ℝ) : EReal) := by exact_mod_cast (by norm_num : (0 : ℝ) < 64)
  simp [Ideal.cmp, this]

/-- Sixty-four less the converted integer zero is sixty-four. -/
theorem c64_sub_zero : c64 - (((0#32 : BitVec 32).toInt : ℝ) : EReal) = c64 := by
  have h0 : (((0#32 : BitVec 32).toInt : ℝ) : EReal) = 0 := by
    rw [show (0#32 : BitVec 32).toInt = 0 from by decide]; simp
  rw [h0, sub_zero]

end Cert.RowNorm

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KernelRow.lean ====
/-
  One block of the kernel, read at an index.

  The body takes a block of two thousand rows of `x`, the matching block of the neighbour sums, the two halves of the
  weight matrix and the three row vectors, and leaves in its output block, at row `p` and column `q`, the normalized
  row of `RowNorm`: the row `h p` is the sum of the two half products plus the bias, and the layer normalization of
  `h p` is taken with sums over its sixty-four entries. A change of float format is the identity on extended reals
  and the product into a zero accumulator is the plain sum over the contracted axis.
-/
import proofs.«174950_j36026185678969_1_alg».proof.Proof.Gen.KernelIdeal.Skeleton
import proofs.«174950_j36026185678969_1_alg».proof.Proof.RowNorm
import proofs.«174950_j36026185678969_1_alg».proof.Proof.LibColumn
import proofs.«174950_j36026185678969_1_alg».proof.Proof.LibDotFormats
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx Cert.RowNorm
open scoped BigOperators

/-! ## The layout operations of the body -/

/-- The sums of a block's rows, kept as a column. -/
def rowSum (X : FVec Ideal S2000x64 .f32) : FVec Ideal S2000x1 .f32 :=
  shapeCast S2000x1 (multiReduction .add [1] S2000 X 0x00000000#32 reduces_S2000x64_S2000 (.inl rfl) rfl) shapeCasts_S2000_S2000x1

theorem rowSum_apply (X : FVec Ideal S2000x64 .f32) (p : Fin 2000) (u : Fin 1) :
    rowSum X (ix2 p u) = ∑ j : Fin 64, X (ix2 p j) := by
  refine (Cert.LibColumn.shapeCast_a_a1_apply _ shapeCasts_S2000_S2000x1 p u).trans ?_
  refine (Ideal.multiReduction_add_single X 0x00000000#32 reduces_S2000x64_S2000 (.inl rfl) rfl (ix1 p)).trans ?_
  refine Finset.sum_congr rfl fun j _ => congrArg X ?_
  funext c; apply Fin.ext
  match c with
  | ⟨0, _⟩ => rfl
  | ⟨1, _⟩ => rfl

/-- A column spread over the sixty-four columns. -/
def spread (c : FVec Ideal S2000x1 .f32) : FVec Ideal S2000x64 .f32 := broadcastTo S2000x64 c broadcasts_S2000x1_S2000x64

theorem spread_apply (c : FVec Ideal S2000x1 .f32) (p : Fin 2000) (q : Fin 64) : spread c (ix2 p q) = c (ix2 p (0 : Fin 1)) :=
  Cert.LibColumn.broadcastTo_a1_ab_apply c broadcasts_S2000x1_S2000x64 p q

/-- A row vector spread over the two thousand rows. -/
def rowVec (v : Vec Ideal S1x64 .f32) : FVec Ideal S2000x64 .f32 :=
  broadcastTo S2000x64 (shapeCast S1x64 v shapeCasts_S1x64_S1x64) broadcasts_S1x64_S2000x64

theorem rowVec_apply (v : Vec Ideal S1x64 .f32) (p : Fin 2000) (q : Fin 64) : rowVec v (ix2 p q) = v (ix2 (0 : Fin 1) q) := by
  refine (broadcastTo_1b_ab_apply _ broadcasts_S1x64_S2000x64 p q).trans ?_
  rw [shapeCast_self]

/-! ## The normalization of a block -/

/-- The column of row means. -/
def meanCol (X : FVec Ideal S2000x64 .f32) : FVec Ideal S2000x1 .f32 :=
  divf (rowSum X) (broadcast S2000x1 (Scalar.ofBits .f32 0x42800000#32))

/-- The block centred row by row. -/
def centred (X : FVec Ideal S2000x64 .f32) : FVec Ideal S2000x64 .f32 := subf X (spread (meanCol X))

/-- The column of reciprocal standard deviations. -/
def invStd (X : FVec Ideal S2000x64 .f32) : FVec Ideal S2000x1 .f32 :=
  rsqrt (addf (divf (rowSum (mulf (centred X) (centred X))) (broadcast S2000x1 (Scalar.ofBits .f32 0x42800000#32)))
    (broadcast S2000x1 (Scalar.ofBits .f32 0x3727C5AC#32)))

/-- The block normalized and multiplied by the gain. -/
def normed (X : FVec Ideal S2000x64 .f32) (g : Vec Ideal S1x64 .f32) : FVec Ideal S2000x64 .f32 :=
  mulf (mulf (centred X) (spread (invStd X))) (rowVec g)

theorem meanCol_apply (X : FVec Ideal S2000x64 .f32) (p : Fin 2000) (u : Fin 1) :
    meanCol X (ix2 p u) = mean (fun j => X (ix2 p j)) := by
  show Ideal.div (rowSum X (ix2 p u)) c64 = _
  rw [rowSum_apply]; rfl

theorem centred_apply (X : FVec Ideal S2000x64 .f32) (p : Fin 2000) (q : Fin 64) :
    centred X (ix2 p q) = dev (fun j => X (ix2 p j)) q := by
  show X (ix2 p q) - spread (meanCol X) (ix2 p q) = _
  rw [spread_apply, meanCol_apply]; rfl

theorem invStd_apply (X : FVec Ideal S2000x64 .f32) (p : Fin 2000) (u : Fin 1) :
    invStd X (ix2 p u) = Ideal.rsqrt (var (fun j => X (ix2 p j)) + eps) := by
  show Ideal.rsqrt (Ideal.div (rowSum (mulf (centred X) (centred X)) (ix2 p u)) c64 + eps) = _
  rw [rowSum_apply]
  have e : (∑ j : Fin 64, mulf (centred X) (centred X) (ix2 p j))
      = ∑ j : Fin 64, dev (fun j => X (ix2 p j)) j * dev (fun j => X (ix2 p j)) j :=
    Finset.sum_congr rfl fun j _ => by
      show centred X (ix2 p j) * centred X (ix2 p j) = _
      rw [centred_apply]
  rw [e]; rfl

theorem normed_apply (X : FVec Ideal S2000x64 .f32) (g : Vec Ideal S1x64 .f32) (p : Fin 2000) (q : Fin 64) :
    normed X g (ix2 p q) = scaled (fun j => X (ix2 p j)) q * g (ix2 (0 : Fin 1) q) := by
  show centred X (ix2 p q) * spread (invStd X) (ix2 p q) * rowVec g (ix2 p q) = _
  rw [centred_apply, spread_apply, invStd_apply, rowVec_apply]; rfl

/-! ## The affine map of a block -/

/-- The block `h`: the two half products and the bias. -/
def affine (x n : Vec Ideal S2000x64 .f32) (w1 w2 : Vec Ideal S64x64 .f32) (b : Vec Ideal S1x64 .f32) : FVec Ideal S2000x64 .f32 :=
  addf (addf
      (matmul dot_S2000x64_S64x64_S2000x64_1_0_0_1_n_n none (truncf .bf16 x bitsLt_bf16_f32)
        (truncf .bf16 (shapeCast S64x64 w1 shapeCasts_S64x64_S64x64) bitsLt_bf16_f32) (constant S2000x64 .f32 0x00000000#32))
      (matmul dot_S2000x64_S64x64_S2000x64_1_0_0_1_n_n none
        (truncf .bf16 (shapeCast S2000x64 n shapeCasts_S2000x64_S2000x64) bitsLt_bf16_f32)
        (truncf .bf16 (shapeCast S64x64 w2 shapeCasts_S64x64_S64x64) bitsLt_bf16_f32) (constant S2000x64 .f32 0x00000000#32)))
    (rowVec b)

theorem affine_apply (x n : Vec Ideal S2000x64 .f32) (w1 w2 : Vec Ideal S64x64 .f32) (b : Vec Ideal S1x64 .f32)
    (p : Fin 2000) (q : Fin 64) :
    affine x n w1 w2 b (ix2 p q)
      = (∑ k : Fin 64, x (ix2 p k) * w1 (ix2 k q)) + (∑ k : Fin 64, n (ix2 p k) * w2 (ix2 k q)) + b (ix2 (0 : Fin 1) q) := by
  show FloatOps.matmul _ _ _ _ _ (ix2 p q) + FloatOps.matmul _ _ _ _ _ (ix2 p q) + rowVec b (ix2 p q) = _
  rw [rowVec_apply]
  rw [Cert.LibDotFormats.matmul_cols_zero_apply (A := 2000) (K := 64) (B := 64) dot_S2000x64_S64x64_S2000x64_1_0_0_1_n_n rfl rfl rfl rfl rfl rfl,
    Cert.LibDotFormats.matmul_cols_zero_apply (A := 2000) (K := 64) (B := 64) dot_S2000x64_S64x64_S2000x64_1_0_0_1_n_n rfl rfl rfl rfl rfl rfl]
  simp only [shapeCast_self]
  rfl

/-! ## The body's payload -/

/-- The payload the body multiplies out before it adds the offset is the normalized affine block times the gain. -/
theorem pay2_eq (v0 v2 : Vec Ideal S2000x64 .f32) (v5 v8 : Vec Ideal S64x64 .f32) (v14 v34 : Vec Ideal S1x64 .f32) :
    k0_pay2 v0 v2 v5 v8 v14 v34 = normed (affine v0 v2 v5 v8 v14) v34 := rfl

/-- The output block at `(p, q)`: the normalized row of `RowNorm` over the affine row. -/
theorem block_apply (v0 v2 : Vec Ideal S2000x64 .f32) (v5 v8 : Vec Ideal S64x64 .f32) (v14 v34 v38 : Vec Ideal S1x64 .f32)
    (p : Fin 2000) (q : Fin 64) :
    k0_pay2 v0 v2 v5 v8 v14 v34 (ix2 p q) + v38 (ix2 (0 : Fin 1) q)
      = norm (fun j => (∑ k : Fin 64, v0 (ix2 p k) * v5 (ix2 k j)) + (∑ k : Fin 64, v2 (ix2 p k) * v8 (ix2 k j)) + v14 (ix2 (0 : Fin 1) j))
          (fun j => v34 (ix2 (0 : Fin 1) j)) (fun j => v38 (ix2 (0 : Fin 1) j)) q := by
  rw [pay2_eq, normed_apply]
  have e : (fun j => affine v0 v2 v5 v8 v14 (ix2 p j))
      = fun j => (∑ k : Fin 64, v0 (ix2 p k) * v5 (ix2 k j)) + (∑ k : Fin 64, v2 (ix2 p k) * v8 (ix2 k j)) + v14 (ix2 (0 : Fin 1) j) :=
    funext fun j => affine_apply v0 v2 v5 v8 v14 p j
  rw [e]; rfl

/-- What the body stores at `(p, q)`: the payload above plus the offset row. -/
theorem out_apply (v0 v2 : Vec Ideal S2000x64 .f32) (v5 v8 : Vec Ideal S64x64 .f32) (v14 v34 v38 : Vec Ideal S1x64 .f32)
    (p : Fin 2000) (q : Fin 64) :
    k0_pay1 (k0_pay2 v0 v2 v5 v8 v14 v34) v38 (ix2 p q)
      = norm (fun j => (∑ k : Fin 64, v0 (ix2 p k) * v5 (ix2 k j)) + (∑ k : Fin 64, v2 (ix2 p k) * v8 (ix2 k j)) + v14 (ix2 (0 : Fin 1) j))
          (fun j => v34 (ix2 (0 : Fin 1) j)) (fun j => v38 (ix2 (0 : Fin 1) j)) q := by
  show k0_pay2 v0 v2 v5 v8 v14 v34 (ix2 p q) + rowVec v38 (ix2 p q) = _
  rw [rowVec_apply]
  exact block_apply v0 v2 v5 v8 v14 v34 v38 p q

end Cert.KernelIdeal.Row

end
-- ==== Proof.KernelArray.lean ====
/-
  From the kernel's blocks to its whole result array.

  Before the region the program gathers the rows of `x` named by the first row of the edge list (an index below zero
  counted from the end), adds each gathered row into the row of a zero array named by the second row of the edge list,
  cuts the weight matrix into its upper and lower halves and gives the three vectors a leading unit axis. Grid point
  `t` of fifty stages rows `2000 t … 2000 t + 1999` of `x` and of the neighbour sums, the two half matrices and
  the three row vectors whole, and writes back rows `2000 t … 2000 t + 1999` of the result. So the block point `t`
  writes is the restriction of ONE array, `RowNorm.G` of the arguments and the neighbour sums, and the fifty blocks
  tile the hundred thousand rows.
-/
import proofs.«174950_j36026185678969_1_alg».proof.Proof.Gen.KernelIdeal.Value
import proofs.«174950_j36026185678969_1_alg».proof.Proof.KernelRow
import Idealize.ShloMosaic.Lib.ValueLayout
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.RowNorm
open Idealize.ShloMosaic.Pipeline (Dat)
open scoped BigOperators

/-! ## The host operations before the region -/

section Host
variable {F : FTy → Type} [FloatOps F]

/-- The first row of the edge list: the rows to gather. -/
def srcIdx (ei : IVec S2x1000000 32) : IVec S1000000 32 :=
  shapeCast S1000000 (extractStridedSlice S1x1000000 ![0, 0] ei slices_S2x1000000_S1x1000000_0_0) shapeCasts_S1x1000000_S1000000

/-- The second row of the edge list: the rows to add into. -/
def dstIdx (ei : IVec S2x1000000 32) : IVec S1000000 32 :=
  shapeCast S1000000 (extractStridedSlice S1x1000000 ![1, 0] ei slices_S2x1000000_S1x1000000_1_0) shapeCasts_S1x1000000_S1000000

/-- The rows to gather with an index below zero counted from the end. -/
def srcWrapped (ei : IVec S2x1000000 32) : IVec S1000000 32 :=
  select (cmpi .slt (srcIdx ei) (broadcastInDim S1000000 ![] bcast_S_S1000000 (constantI S_ 32 0#32)))
    (addi (srcIdx ei) (broadcastInDim S1000000 ![] bcast_S_S1000000 (constantI S_ 32 100000#32))) (srcIdx ei)

/-- The neighbour sums: the gathered rows added into a zero array at the destination rows. -/
def nsum (x : FVec F S100000x64 .f32) (ei : IVec S2x1000000 32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 (dstIdx ei))
    (Host.gather gather_S100000x64_S1000000x1_S1000000x64_1_0_n_n_0_1_164 x
      (broadcastInDim S1000000x1 ![0] bcast_S1000000_S1000000x1_0 (srcWrapped ei)))

end Host

variable (m : (ℓ : Loc nD τ sig) → Buf (Elt Ideal) ℓ) (ρ : Dev nD → PrngReg)

/-- The arguments as launched on core `c`, at their array types. -/
abbrev ax (c : Dev nD) : FVec Ideal S100000x64 .f32 := m ((c : Thread nD τ).loc main_arg0)
abbrev ae (c : Dev nD) : IVec S2x1000000 32 := m ((c : Thread nD τ).loc main_arg1)
abbrev aw (c : Dev nD) : FVec Ideal S128x64 .f32 := m ((c : Thread nD τ).loc main_arg2)
abbrev ab (c : Dev nD) : FVec Ideal S64 .f32 := m ((c : Thread nD τ).loc main_arg3)
abbrev ag (c : Dev nD) : FVec Ideal S64 .f32 := m ((c : Thread nD τ).loc main_arg4)
abbrev abe (c : Dev nD) : FVec Ideal S64 .f32 := m ((c : Thread nD τ).loc main_arg5)

/-- The neighbour sums are what the region finds in its second operand's array. -/
theorem V_nsum (c : Dev nD) :
    (V m c main_v13 : S100000x64.Idx → EReal) = nsum (ax m c) (ae m c) := by
  dsimp only [V, hostOps0]; after_results; rfl

theorem V_w1 (c : Dev nD) :
    (V m c main_v14 : S64x64.Idx → EReal) = extractStridedSlice S64x64 ![0, 0] (m ((c : Thread nD τ).loc main_arg2)) slices_S128x64_S64x64_0_0 := by
  dsimp only [V, hostOps0]; after_results

theorem V_w2 (c : Dev nD) :
    (V m c main_v15 : S64x64.Idx → EReal) = extractStridedSlice S64x64 ![64, 0] (m ((c : Thread nD τ).loc main_arg2)) slices_S128x64_S64x64_64_0 := by
  dsimp only [V, hostOps0]; after_results

theorem V_b (c : Dev nD) :
    (V m c main_v16 : S1x64.Idx → EReal) = shapeCast S1x64 (m ((c : Thread nD τ).loc main_arg3)) shapeCasts_S64_S1x64 := by
  dsimp only [V, hostOps0]; after_results; rfl

theorem V_g (c : Dev nD) :
    (V m c main_v17 : S1x64.Idx → EReal) = shapeCast S1x64 (m ((c : Thread nD τ).loc main_arg4)) shapeCasts_S64_S1x64 := by
  dsimp only [V, hostOps0]; after_results; rfl

theorem V_be (c : Dev nD) :
    (V m c main_v18 : S1x64.Idx → EReal) = shapeCast S1x64 (m ((c : Thread nD τ).loc main_arg5)) shapeCasts_S64_S1x64 := by
  dsimp only [V, hostOps0]; after_results; rfl

/-! ## The result array -/

/-- The array the run ends with on core `c`: `RowNorm.G` of the arguments and the neighbour sums. -/
abbrev Gk (c : Dev nD) : S100000x64.Idx → EReal :=
  RowNorm.G (ax m c) (nsum (ax m c) (ae m c)) (aw m c) (ab m c) (ag m c) (abe m c)

theorem hz : (![0, 0] : Fin 2 → Nat) = fun _ => 0 := funext fun a => by fin_cases a <;> rfl

/-- The printed index maps over the fifty points: the two row-blocked inputs and the output are at block row `t`,
    column block zero; the five resident inputs stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 50 := by have h := t.isLt; have h50 : cfg0.N = 50 := N_0; omega

/-- The array row that row `p` of point `t`'s blocks is. -/
def rowOf (t : Fin cfg0.N) (p : Fin 2000) : Fin 100000 := ⟨t.val * 2000 + p.val, by have := t_lt t; have := p.isLt; omega⟩

/-! ### Each staged block read at an index -/

theorem read_x (c : Dev nD) (t : Fin cfg0.N) (p : Fin 2000) (k : Fin 64) :
    iblk m c 0 t (ix2 p k) = m ((c : Thread nD τ).loc main_arg0) (ix2 (rowOf t p) k) := by
  show V m c main_arg0 (((cfg0.win 0).blk t).view.emb (ix2 p k)) = _
  rw [V_main_arg0]
  have he : ((cfg0.win 0).blk t).view.emb (ix2 p k) = ix2 (rowOf t p) k := by
    obtain ⟨e0, e1, -⟩ := idx_facts t
    funext a; apply Fin.ext
    match a with
    | ⟨0, _⟩ => show win0_0.index t (0 : Fin 2) * 2000 + 1 * p.val = t.val * 2000 + p.val; omega
    | ⟨1, _⟩ => show win0_0.index t (1 : Fin 2) * 64 + 1 * k.val = k.val; omega
  rw [he]

/-- The contents the region finds at a buffer known to be the second operand's array. -/
theorem V_at_nsum (c : Dev nD) (b : Ref sig .tc) (h : b = main_v13) : HEq (V m c b) (nsum (ax m c) (ae m c)) := by
  subst h; exact heq_of_eq (V_nsum m c)

/-- Row `p` of point `t`'s block of any array staged like the second operand is row `2000 t + p` of the array. -/
theorem blk1_read (t : Fin cfg0.N) (X : S100000x64.Idx → EReal) (p : Fin 2000) (k : Fin 64) :
    ((cfg0.win 1).blk t).view.read (Elt Ideal) X (ix2 p k) = X (ix2 (rowOf t p) k) := by
  show X (((cfg0.win 1).blk t).view.emb (ix2 p k)) = _
  have he : ((cfg0.win 1).blk t).view.emb (ix2 p k) = ix2 (rowOf t p) k := by
    obtain ⟨-, -, e0, e1, -⟩ := idx_facts t
    funext a; apply Fin.ext
    match a with
    | ⟨0, _⟩ => show win0_1.index t (0 : Fin 2) * 2000 + 1 * p.val = t.val * 2000 + p.val; omega
    | ⟨1, _⟩ => show win0_1.index t (1 : Fin 2) * 64 + 1 * k.val = k.val; omega
  rw [he]

theorem read_n (c : Dev nD) (t : Fin cfg0.N) (p : Fin 2000) (k : Fin 64) :
    iblk m c 1 t (ix2 p k) = nsum (ax m c) (ae m c) (ix2 (rowOf t p) k) := by
  have hv : (V m c (Pipeline.arrRef spec0 1) : S100000x64.Idx → EReal) = nsum (ax m c) (ae m c) :=
    eq_of_heq (V_at_nsum m c (Pipeline.arrRef spec0 1) rfl)
  exact (congrArg (fun X : S100000x64.Idx → EReal => ((cfg0.win 1).blk t).view.read (Elt Ideal) X (ix2 p k)) hv).trans
    (blk1_read t (nsum (ax m c) (ae m c)) p k)

theorem read_w1 (c : Dev nD) (t : Fin cfg0.N) (k : Fin 64) (j : Fin 64) :
    iblk m c 2 t (ix2 k j) = m ((c : Thread nD τ).loc main_arg2) (ix2 (⟨k.val, by have := k.isLt; omega⟩ : Fin 128) j) := by
  show (V m c main_v14 : S64x64.Idx → EReal) (((cfg0.win 2).blk t).view.emb (ix2 k j)) = _
  rw [V_w1]
  obtain ⟨-, -, -, -, e0, e1, -⟩ := idx_facts t
  have he : ((cfg0.win 2).blk t).view.emb (ix2 k j) = ix2 k j := by
    funext a; apply Fin.ext
    match a with
    | ⟨0, _⟩ => show win0_2.index t (0 : Fin 2) * 64 + 1 * k.val = k.val; omega
    | ⟨1, _⟩ => show win0_2.index t (1 : Fin 2) * 64 + 1 * j.val = j.val; omega
  rw [he]
  exact slice2_axis0_apply 0 _ slices_S128x64_S64x64_0_0 k j _ (by simp)

theorem read_w2 (c : Dev nD) (t : Fin cfg0.N) (k : Fin 64) (j : Fin 64) :
    iblk m c 3 t (ix2 k j) = m ((c : Thread nD τ).loc main_arg2) (ix2 (⟨64 + k.val, by have := k.isLt; omega⟩ : Fin 128) j) := by
  show (V m c main_v15 : S64x64.Idx → EReal) (((cfg0.win 3).blk t).view.emb (ix2 k j)) = _
  rw [V_w2]
  obtain ⟨-, -, -, -, -, -, e0, e1, -⟩ := idx_facts t
  have he : ((cfg0.win 3).blk t).view.emb (ix2 k j) = ix2 k j := by
    funext a; apply Fin.ext
    match a with
    | ⟨0, _⟩ => show win0_3.index t (0 : Fin 2) * 64 + 1 * k.val = k.val; omega
    | ⟨1, _⟩ => show win0_3.index t (1 : Fin 2) * 64 + 1 * j.val = j.val; omega
  rw [he]
  exact slice2_axis0_apply 64 _ slices_S128x64_S64x64_64_0 k j _ rfl

theorem read_b (c : Dev nD) (t : Fin cfg0.N) (j : Fin 64) :
    iblk m c 4 t (ix2 (0 : Fin 1) j) = m ((c : Thread nD τ).loc main_arg3) (ix1 j) := by
  show (V m c main_v16 : S1x64.Idx → EReal) (((cfg0.win 4).blk t).view.emb (ix2 (0 : Fin 1) j)) = _
  rw [V_b]
  obtain ⟨-, -, -, -, -, -, -, -, e0, e1, -⟩ := idx_facts t
  have he : ((cfg0.win 4).blk t).view.emb (ix2 (0 : Fin 1) j) = ix2 (0 : Fin 1) j := by
    funext a; apply Fin.ext
    match a with
    | ⟨0, _⟩ => show win0_4.index t (0 : Fin 2) * 1 + 1 * 0 = 0; omega
    | ⟨1, _⟩ => show win0_4.index t (1 : Fin 2) * 64 + 1 * j.val = j.val; omega
  rw [he]
  exact shapeCast_a_1a_apply _ shapeCasts_S64_S1x64 0 j

theorem read_g (c : Dev nD) (t : Fin cfg0.N) (j : Fin 64) :
    iblk m c 5 t (ix2 (0 : Fin 1) j) = m ((c : Thread nD τ).loc main_arg4) (ix1 j) := by
  show (V m c main_v17 : S1x64.Idx → EReal) (((cfg0.win 5).blk t).view.emb (ix2 (0 : Fin 1) j)) = _
  rw [V_g]
  obtain ⟨-, -, -, -, -, -, -, -, -, -, e0, e1, -⟩ := idx_facts t
  have he : ((cfg0.win 5).blk t).view.emb (ix2 (0 : Fin 1) j) = ix2 (0 : Fin 1) j := by
    funext a; apply Fin.ext
    match a with
    | ⟨0, _⟩ => show win0_5.index t (0 : Fin 2) * 1 + 1 * 0 = 0; omega
    | ⟨1, _⟩ => show win0_5.index t (1 : Fin 2) * 64 + 1 * j.val = j.val; omega
  rw [he]
  exact shapeCast_a_1a_apply _ shapeCasts_S64_S1x64 0 j

theorem read_be (c : Dev nD) (t : Fin cfg0.N) (j : Fin 64) :
    iblk m c 6 t (ix2 (0 : Fin 1) j) = m ((c : Thread nD τ).loc main_arg5) (ix1 j) := by
  show (V m c main_v18 : S1x64.Idx → EReal) (((cfg0.win 6).blk t).view.emb (ix2 (0 : Fin 1) j)) = _
  rw [V_be]
  obtain ⟨-, -, -, -, -, -, -, -, -, -, -, -, e0, e1, -⟩ := idx_facts t
  have he : ((cfg0.win 6).blk t).view.emb (ix2 (0 : Fin 1) j) = ix2 (0 : Fin 1) j := by
    funext a; apply Fin.ext
    match a with
    | ⟨0, _⟩ => show win0_6.index t (0 : Fin 2) * 1 + 1 * 0 = 0; omega
    | ⟨1, _⟩ => show win0_6.index t (1 : Fin 2) * 64 + 1 * j.val = j.val; omega
  rw [he]
  exact shapeCast_a_1a_apply _ shapeCasts_S64_S1x64 0 j

/-! ### What a point writes back -/

/-- Row `p` of point `t`'s block of any array staged like the result is row `2000 t + p` of the array. -/
theorem blk7_read (t : Fin cfg0.N) (X : S100000x64.Idx → EReal) (p : Fin 2000) (q : Fin 64) :
    ((cfg0.win 7).blk t).view.read (Elt Ideal) X (ix2 p q) = X (ix2 (rowOf t p) q) := by
  show X (((cfg0.win 7).blk t).view.emb (ix2 p q)) = _
  have he : ((cfg0.win 7).blk t).view.emb (ix2 p q) = ix2 (rowOf t p) q := by
    obtain ⟨-, -, -, -, -, -, -, -, -, -, -, -, -, -, e0, e1⟩ := idx_facts t
    funext a; apply Fin.ext
    match a with
    | ⟨0, _⟩ => show win0_7.index t (0 : Fin 2) * 2000 + 1 * p.val = t.val * 2000 + p.val; omega
    | ⟨1, _⟩ => show win0_7.index t (1 : Fin 2) * 64 + 1 * q.val = q.val; omega
  rw [he]

/-- The result window is not cut at the array's end: what is written back is the whole staged block. -/
theorem cut7 (t : Fin cfg0.N) (Y : S2000x64.Idx → EReal) (p : Fin 2000) (q : Fin 64) :
    (cfg0.win 7).cut (grid0.coords t) Y (ix2 p q) = Y (ix2 p q) := rfl

/-- Point `t` writes back block `t` of `Gk`. -/
theorem flushed_eq (c : Dev nD) (t : Fin cfg0.N) :
    (dats m 0 c).flushed 7 t = ((cfg0.win 7).blk t).view.read (Elt Ideal) (Gk m c) := by
  show (cfg0.win 7).cut (grid0.coords t) ((dats m 0 c).after 7 t) = _
  rw [after0_7]
  unfold out0_7
  rw [View.canon_unit_zero hz]
  simp only [View.ld_unit_zero (S := S2000x64) hz, View.ld_unit_zero (S := S64x64) hz, View.ld_unit_zero (S := S1x64) hz]
  funext j
  obtain ⟨p, q, rfl⟩ : ∃ (p : Fin 2000) (q : Fin 64), j = ix2 p q := ⟨j 0, j 1, eq_ix2 j⟩
  refine (cut7 t _ p q).trans ?_
  refine Eq.trans ?_ (blk7_read t (Gk m c) p q).symm
  refine (Row.out_apply (iblk m c 0 t) (iblk m c 1 t) (iblk m c 2 t) (iblk m c 3 t) (iblk m c 4 t) (iblk m c 5 t) (iblk m c 6 t) p q).trans ?_
  simp only [read_x, read_n, read_w1, read_w2, read_b, read_g, read_be]
  rfl

/-- An index of the array is in point `t`'s block iff each coordinate is in the block's range on its axis. -/
theorem mem_blk (t : Fin cfg0.N) (i : S100000x64.Idx) :
    i ∈ ((cfg0.win 7).blk t).view.set ↔ ∀ a : Fin 2, win0_7.index t a * S2000x64.size a ≤ (i a).val ∧ (i a).val < win0_7.index t a * S2000x64.size a + S2000x64.size a := by
  show i ∈ ((View.whole main_v19).slice (win0_7.rect t)).set ↔ _
  rw [View.set_slice_whole, Rect.mem_set_unit]
  exact Iff.rfl

/-- Every row of the array is in the block of the point `row / 2000`. -/
theorem cover (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  let t : Fin cfg0.N := ⟨(i 0).val / 2000, by rw [show cfg0.N = 50 from N_0]; omega⟩
  refine ⟨t, flush0_7 t, ?_⟩
  obtain ⟨-, -, -, -, -, -, -, -, -, -, -, -, -, -, e0, e1⟩ := idx_facts t
  have ht : t.val = (i 0).val / 2000 := rfl
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 64 ≤ (i 1).val ∧ (i 1).val < win0_7.index t (1 : Fin 2) * 64 + 64; omega

/-- The result array after the run is `Gk`. -/
theorem final (c : Dev nD) : (dats m 0 c).arrAt 7 cfg0.N = Gk m c :=
  (dats m 0 c).arrAt_eq_of_cover 7 (Gk m c) (fun t _ => flushed_eq m c t) cover

/-- Every weakly fair execution of the kernel's program terminates with the result array at `Gk` and the arguments
    unchanged. -/
theorem run : θ_run defs (onTc (τ := τ) (main (F := Ideal))) ⟨m, fun _ => 0, ρ⟩ fun r => ∀ c : Dev nD,
      r.2.mem ((c : Thread nD τ).loc main_v19) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.LibStage.lean ====
/-
  Stage equations of a straight line of host operations in single-assignment form.

  A line of operations is STAGED along a ranking `rk` of the device's buffers when its k-th operation writes
  only buffers of rank `lo + k`, touches besides them only buffers of smaller rank, and computes what it writes
  from the buffers it does not write. Then no operation overwrites a buffer an earlier one wrote or read, so in
  the contents `after ops V` the line ends at, EVERY operation's equation holds at once:
  `after ops V b = op.result (after ops V) b` for each written `b` (`Staged.after_eq`), and a buffer ranked
  below the first stage keeps what it held (`Staged.after_of_lt`). The builders of Lib/StableHlo.lean are
  stages as soon as their operands rank below their result (`unary_stageAt` …); with the builder's
  `‹kind›_result` the equation reads `after ops V y = f (after ops V x)`.
-/
import Idealize.ShloMosaic.Lib.StableHlo.Run

namespace Idealize.ShloMosaic.StableHlo

variable {τ : Topo} {sig : RefSig} {Val : EltTy → Type}

/-- `op` is a stage at rank `lo`: every buffer it writes has rank `lo`, every buffer it touches without writing
    has a smaller rank, and what it writes is decided by the contents of the buffers it does not write. -/
structure StageAt (rk : DevRef τ sig → ℕ) (lo : ℕ) (op : HloOp τ sig Val) : Prop where
  reads_lt : ∀ b ∈ op.bufs, b ∉ op.writes → rk b < lo
  writes_eq : ∀ b ∈ op.writes, rk b = lo
  indep : ∀ F G : Valuation τ sig Val, (∀ b ∈ op.bufs, b ∉ op.writes → F b = G b) →
    ∀ b ∈ op.writes, op.result F b = op.result G b

/-- A line of operations staged from rank `lo` up to `hi`: the first a stage at `lo`, the next at `lo + 1`, …,
    and `hi` the rank after the last. -/
def Staged (rk : DevRef τ sig → ℕ) : ℕ → List (HloOp τ sig Val) → ℕ → Prop
  | lo, [], hi => lo = hi
  | lo, op :: post, hi => StageAt rk lo op ∧ Staged rk (lo + 1) post hi

namespace Staged

variable {rk : DevRef τ sig → ℕ}

theorem nil (lo : ℕ) : Staged rk lo ([] : List (HloOp τ sig Val)) lo := rfl

theorem cons {lo hi : ℕ} {op : HloOp τ sig Val} {post : List (HloOp τ sig Val)} (h : StageAt rk lo op)
    (hp : Staged rk (lo + 1) post hi) : Staged rk lo (op :: post) hi := ⟨h, hp⟩

/-- Two staged lines, the second from where the first ends, are one staged line. -/
theorem append {l₁ l₂ : List (HloOp τ sig Val)} {hi : ℕ} :
    ∀ {lo mid : ℕ}, Staged rk lo l₁ mid → Staged rk mid l₂ hi → Staged rk lo (l₁ ++ l₂) hi := by
  induction l₁ with
  | nil => intro lo mid h₁ h₂; cases (show lo = mid from h₁); exact h₂
  | cons op l ih => intro lo mid h₁ h₂; exact ⟨h₁.1, ih h₁.2 h₂⟩

/-- Every buffer a staged line writes has rank at least the line's first. -/
theorem le_rk_of_mem {l : List (HloOp τ sig Val)} {hi : ℕ} :
    ∀ {lo : ℕ}, Staged rk lo l hi → ∀ op ∈ l, ∀ b ∈ op.writes, lo ≤ rk b := by
  induction l with
  | nil => intro lo _ op hop; exact absurd hop List.not_mem_nil
  | cons o post ih =>
    intro lo h op hop b hb
    rcases List.mem_cons.mp hop with e | hop
    · exact Nat.le_of_eq ((e ▸ h.1).writes_eq b hb).symm
    · exact Nat.le_of_succ_le (ih h.2 op hop b hb)

/-- A buffer ranked below a staged line's first stage keeps its contents. -/
theorem after_of_lt {l : List (HloOp τ sig Val)} {lo hi : ℕ} (h : Staged rk lo l hi) (V : Valuation τ sig Val)
    {b : DevRef τ sig} (hb : rk b < lo) : after l V b = V b :=
  after_of_forall_not_mem l V fun op hop hw => absurd (h.le_rk_of_mem op hop b hw) (Nat.not_le.mpr hb)

/-- In the contents a staged line ends at, every operation's written buffers hold the operation's value AT THOSE
    CONTENTS: nothing after it rewrites what it wrote or what it read. -/
theorem after_eq {l : List (HloOp τ sig Val)} {hi : ℕ} :
    ∀ {lo : ℕ}, Staged rk lo l hi → ∀ (V : Valuation τ sig Val) (op : HloOp τ sig Val), op ∈ l →
      ∀ b ∈ op.writes, after l V b = op.result (after l V) b := by
  induction l with
  | nil => intro lo _ V op hop; exact absurd hop List.not_mem_nil
  | cons o post ih =>
    intro lo h V op hop b hb
    rw [after_cons]
    rcases List.mem_cons.mp hop with e | hop
    · subst e
      have ho := h.1
      have hpost := h.2
      have hlt : rk b < lo + 1 := Nat.lt_succ_of_le (Nat.le_of_eq (ho.writes_eq b hb))
      rw [hpost.after_of_lt _ hlt]
      refine ho.indep _ _ (fun c hc hcw => ?_) b hb
      rw [hpost.after_of_lt _ (Nat.lt_succ_of_lt (ho.reads_lt c hc hcw)), HloOp.result_of_not_mem _ V hcw]
    · exact ih h.2 _ op hop b hb

end Staged

/-! ## The builders as stages -/

section Builders

variable {rk : DevRef τ sig → ℕ} {lo : ℕ}

private theorem not_mem_single {x y : Ref sig .tc} (h1 : rk (Proc.devRef (τ := τ) .tc x) < lo)
    (h2 : rk (Proc.devRef (τ := τ) .tc y) = lo) :
    (Proc.devRef (τ := τ) .tc x) ∉ ({Proc.devRef (τ := τ) .tc y} : Finset (DevRef τ sig)) := fun hm => by
  rw [Finset.mem_singleton.mp hm, h2] at h1; exact Nat.lt_irrefl _ h1

theorem nullary_stageAt (y : Ref sig .tc) (v : y.ty.Contents Val) (hy)
    (h : rk (Proc.devRef (τ := τ) .tc y) = lo) : StageAt rk lo (nullary (τ := τ) y v hy) where
  reads_lt b hb hw := absurd hb hw
  writes_eq b hb := by obtain rfl := Finset.mem_singleton.mp hb; exact h
  indep F G _ b hb := by
    obtain rfl := Finset.mem_singleton.mp hb
    exact (nullary_result y v hy F).trans (nullary_result y v hy G).symm

theorem unary_stageAt (x y : Ref sig .tc) (f : x.ty.Contents Val → y.ty.Contents Val) (hx hy)
    (h1 : rk (Proc.devRef (τ := τ) .tc x) < lo) (h2 : rk (Proc.devRef (τ := τ) .tc y) = lo) :
    StageAt rk lo (unary (τ := τ) x y f hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [unary_result, unary_result, h _ (Finset.mem_insert_self _ _) (not_mem_single h1 h2)]

theorem reshape_stageAt (x y : Ref sig .tc) (he hn hx hy)
    (h1 : rk (Proc.devRef (τ := τ) .tc x) < lo) (h2 : rk (Proc.devRef (τ := τ) .tc y) = lo) :
    StageAt rk lo (reshape (τ := τ) (Val := Val) x y he hn hx hy) where
  reads_lt b hb hw := by
    rcases Finset.mem_insert.mp hb with rfl | hb
    · exact h1
    · exact absurd hb hw
  writes_eq b hb := by obtain rfl := Finset.mem_singleton.mp hb; exact h2
  indep F G h b hb := by
    obtain rfl := Finset.mem_singleton.mp hb
    rw [reshape_result, reshape_result, h _ (Finset.mem_insert_self _ _) (not_mem_single h1 h2)]

theorem binary_stageAt (a b y : Ref sig .tc) (f : a.ty.Contents Val → b.ty.Contents Val → y.ty.Contents Val) (ha hb hy)
    (h1 : rk (Proc.devRef (τ := τ) .tc a) < lo) (h2 : rk (Proc.devRef (τ := τ) .tc b) < lo)
    (h3 : rk (Proc.devRef (τ := τ) .tc y) = lo) : StageAt rk lo (binary (τ := τ) a b y f ha hb hy) where
  reads_lt c hc hw := by
    rcases Finset.mem_insert.mp hc with rfl | hc
    · exact h1
    rcases Finset.mem_insert.mp hc with rfl | hc
    · exact h2
    · exact absurd hc hw
  writes_eq c hc := by obtain rfl := Finset.mem_singleton.mp hc; exact h3
  indep F G h c hc := by
    obtain rfl := Finset.mem_singleton.mp hc
    have ea := h _ (Finset.mem_insert_self _ _) (not_mem_single h1 h3)
    have eb := h _ (Finset.mem_insert_of_mem (Finset.mem_insert_self _ _)) (not_mem_single h2 h3)
    exact (binary_result a b y f ha hb hy F).trans
      ((congrArg₂ f ea eb).trans (binary_result a b y f ha hb hy G).symm)

theorem ternary_stageAt (c a b y : Ref sig .tc)
    (f : c.ty.Contents Val → a.ty.Contents Val → b.ty.Contents Val → y.ty.Contents Val) (hc ha hb hy)
    (h0 : rk (Proc.devRef (τ := τ) .tc c) < lo) (h1 : rk (Proc.devRef (τ := τ) .tc a) < lo)
    (h2 : rk (Proc.devRef (τ := τ) .tc b) < lo) (h3 : rk (Proc.devRef (τ := τ) .tc y) = lo) :
    StageAt rk lo (ternary (τ := τ) c a b y f hc ha hb hy) where
  reads_lt d hd hw := by
    rcases Finset.mem_insert.mp hd with rfl | hd
    · exact h0
    rcases Finset.mem_insert.mp hd with rfl | hd
    · exact h1
    rcases Finset.mem_insert.mp hd with rfl | hd
    · exact h2
    · exact absurd hd hw
  writes_eq d hd := by obtain rfl := Finset.mem_singleton.mp hd; exact h3
  indep F G h d hd := by
    obtain rfl := Finset.mem_singleton.mp hd
    have ec := h _ (Finset.mem_insert_self _ _) (not_mem_single h0 h3)
    have ea := h _ (Finset.mem_insert_of_mem (Finset.mem_insert_self _ _)) (not_mem_single h1 h3)
    have eb := h _ (Finset.mem_insert_of_mem (Finset.mem_insert_of_mem (Finset.mem_insert_self _ _))) (not_mem_single h2 h3)
    refine (ternary_result c a b y f hc ha hb hy F).trans (Eq.trans ?_ (ternary_result c a b y f hc ha hb hy G).symm)
    rw [ec, ea, eb]

end Builders

end Idealize.ShloMosaic.StableHlo
-- ==== Proof.RefLine.lean ====
/-
  The reference program as one straight line of host operations.

  The entry function and the two helper functions it calls (the variance, which itself calls a selection) are
  sixty-six operations in single-assignment order: each writes the next buffer of the signature and reads only
  earlier ones. So every weakly fair execution ends with each buffer at the fold of the line over the launch
  contents, and in those final contents every operation's equation holds at once.
-/
import proofs.«174950_j36026185678969_1_alg».proof.Proof.Gen.ReferenceIdeal
import proofs.«174950_j36026185678969_1_alg».proof.Proof.LibStage
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- The sixty-six operations, in order: the entry function's first twenty-nine, the variance helper's twenty, the
    selection helper's three, the entry function's last fourteen. -/
abbrev ops : List (HloOp τ sig (Elt F)) :=
  [ unary main_arg1 main_v0 (extractStridedSlice S1x1000000 ![0, 0] · slices_S2x1000000_S1x1000000_0_0),
    reshape main_v0 main_v1 rfl shapeCasts_S1x1000000_S1000000,
    unary main_arg1 main_v2 (extractStridedSlice S1x1000000 ![1, 0] · slices_S2x1000000_S1x1000000_1_0),
    reshape main_v2 main_v3 rfl shapeCasts_S1x1000000_S1000000,
    nullary main_c (constantI S_ 32 0#32),
    unary main_c main_v4 (broadcastInDim S1000000 ![] bcast_S_S1000000),
    binary main_v1 main_v4 main_v5 (cmpi .slt),
    nullary main_c_0 (constantI S_ 32 100000#32),
    unary main_c_0 main_v6 (broadcastInDim S1000000 ![] bcast_S_S1000000),
    binary main_v1 main_v6 main_v7 addi,
    ternary main_v5 main_v7 main_v1 main_v8 select,
    unary main_v8 main_v9 (broadcastInDim S1000000x1 ![0] bcast_S1000000_S1000000x1_0),
    binary main_arg0 main_v9 main_v10 (fun x i => Host.gather gather_S100000x64_S1000000x1_S1000000x64_1_0_n_n_0_1_164 x i),
    nullary main_cst (constant S_ .f32 0x00000000#32),
    unary main_cst main_v11 (broadcastInDim S100000x64 ![] bcast_S_S100000x64),
    unary main_v3 main_v12 (broadcastInDim S1000000x1 ![0] bcast_S1000000_S1000000x1_0),
    ternary main_v11 main_v12 main_v10 main_v13 (fun x i u => Host.scatterAdd scatter_S100000x64_S1000000x1_S1000000x64_1_0_0_1 x i u),
    binary main_arg0 main_v13 main_v14 (fun a b => concatenate S100000x128 1 [⟨S100000x64, a⟩, ⟨S100000x64, b⟩] concatenates_S100000x64_S100000x64_S100000x128_d1),
    binary main_v14 main_arg2 main_v15 (fun l r => Host.dotGeneral dot_S100000x128_S128x64_S100000x64_1_0_0_1_n_n none l r),
    unary main_arg3 main_v16 (broadcastInDim S1x64 ![1] bcast_S64_S1x64_1),
    unary main_v16 main_v17 (broadcastInDim S100000x64 ![0, 1] bcast_S1x64_S100000x64_0_1),
    binary main_v15 main_v17 main_v18 addf,
    nullary main_cst_1 (constant S_ .f32 0x00000000#32),
    binary main_v18 main_cst_1 main_v19 (fun x v => Host.reduceAdd x v reducesTo_S100000x64_S100000_d1 h_S_),
    unary main_v19 main_v20 (broadcastInDim S100000x1 ![0] bcast_S100000_S100000x1_0),
    nullary main_cst_2 (constant S_ .f32 0x42800000#32),
    unary main_cst_2 main_v21 (broadcastInDim S100000x1 ![] bcast_S_S100000x1),
    binary main_v20 main_v21 main_v22 Host.divf,
    nullary main_c_3 (constantI S_ 32 0#32),
    TRef.nullary main_call0.cst (constant S_ .f32 0x00000000#32),
    TRef.binary (.of main_v18) main_call0.cst main_call0.v0 (fun x v => Host.reduceAdd x v reducesTo_S100000x64_S100000_d1 h_S_),
    TRef.unary main_call0.v0 main_call0.v1 (broadcastInDim S100000x1 ![0] bcast_S100000_S100000x1_0),
    TRef.nullary main_call0.cst_0 (constant S_ .f32 0x42800000#32),
    TRef.unary main_call0.cst_0 main_call0.v2 (broadcastInDim S100000x1 ![] bcast_S_S100000x1),
    TRef.binary main_call0.v1 main_call0.v2 main_call0.v3 Host.divf,
    TRef.unary main_call0.v3 main_call0.v4 (broadcastInDim S100000x64 ![0, 1] bcast_S100000x1_S100000x64_0_1),
    TRef.binary (.of main_v18) main_call0.v4 main_call0.v5 subf,
    TRef.binary main_call0.v5 main_call0.v5 main_call0.v6 mulf,
    TRef.unary (.of main_c_3) main_call0.v7 (sitofp .f32),
    TRef.nullary main_call0.cst_1 (constant S_ .f32 0x42800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S100000_d1 h_S_),
    TRef.unary main_call0.v9 main_call0.v10 (broadcastInDim S100000x1 ![0] bcast_S100000_S100000x1_0),
    TRef.unary main_call0.v8 main_call0.v11 (broadcastInDim S100000x1 ![] bcast_S_S100000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S100000x1 ![] bcast_S_S100000x1),
    TRef.ternary main_call0.v13 main_call0.v12 main_call0.call0.v1 main_call0.call0.v2
      (fun p a b => select (broadcastInDim S100000x1 ![] bcast_S_S100000x1 p) a b),
    unary main_v22 main_v24 (broadcastInDim S100000x64 ![0, 1] bcast_S100000x1_S100000x64_0_1),
    binary main_v18 main_v24 main_v25 subf,
    nullary main_cst_4 (constant S_ .f32 0x3727C5AC#32),
    unary main_cst_4 main_v26 (broadcastInDim S100000x1 ![] bcast_S_S100000x1),
    binary main_v23 main_v26 main_v27 addf,
    unary main_v27 main_v28 Host.rsqrt,
    unary main_v28 main_v29 (broadcastInDim S100000x64 ![0, 1] bcast_S100000x1_S100000x64_0_1),
    binary main_v25 main_v29 main_v30 mulf,
    unary main_arg4 main_v31 (broadcastInDim S1x64 ![1] bcast_S64_S1x64_1),
    unary main_v31 main_v32 (broadcastInDim S100000x64 ![0, 1] bcast_S1x64_S100000x64_0_1),
    binary main_v30 main_v32 main_v33 mulf,
    unary main_arg5 main_v34 (broadcastInDim S1x64 ![1] bcast_S64_S1x64_1),
    unary main_v34 main_v35 (broadcastInDim S100000x64 ![0, 1] bcast_S1x64_S100000x64_0_1),
    binary main_v33 main_v35 main_v36 addf ]

set_option maxRecDepth 2048 in
/-- The entry function is that line: the helpers' bodies stand at their calls, over the calls' buffer records. -/
theorem main_eq (c : Dev nD) : main (F := F) c = seq ops := by
  simp only [main, fn_var.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every weakly fair execution of the entry function terminates with each buffer at the line's fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The rank of a buffer: its place in the signature. -/
def rk (b : DevRef τ sig) : ℕ := b.idx.val

/-- The line is staged along the signature's order, from the first computed buffer to the last. -/
theorem staged : Staged rk 6 (ops : List (HloOp τ sig (Elt F))) 72 := by
  repeat (first
    | refine Staged.cons (nullary_stageAt _ _ _ rfl) ?_
    | refine Staged.cons (unary_stageAt _ _ _ _ _ (by decide) rfl) ?_
    | refine Staged.cons (reshape_stageAt _ _ _ _ _ _ (by decide) rfl) ?_
    | refine Staged.cons (binary_stageAt _ _ _ _ _ _ _ (by decide) (by decide) rfl) ?_
    | refine Staged.cons (ternary_stageAt _ _ _ _ _ _ _ _ _ (by decide) (by decide) (by decide) rfl) ?_)
  exact Staged.nil _

end Cert.ReferenceIdeal.Line

end
-- ==== Proof.RefStages.lean ====
/-
  The reference's stages as functions of arrays.

  The neighbour sums (rows of `x` gathered by the first row of the edge list, an index below zero counted from the
  end, and added into a zero array at the rows the second row of the edge list names), the affine image of the
  concatenated rows, and the layer normalization with the variance helper's divisor `64 - 0` and its selection.
-/
import proofs.«174950_j36026185678969_1_alg».proof.Proof.Gen.ReferenceIdeal
import Idealize.ShloMosaic.PureOps.Ideal

noncomputable section

namespace Cert.ReferenceIdeal.Whole

open Cert.ReferenceIdeal Cert.ReferenceIdeal.Gen Idealize.ShloMosaic

/-! ## The stages as functions -/

section Host
variable {F : FTy → Type} [FloatOps F]

/-- The first row of the edge list: the rows to gather. -/
def srcIdx (ei : IVec S2x1000000 32) : IVec S1000000 32 :=
  shapeCast S1000000 (extractStridedSlice S1x1000000 ![0, 0] ei slices_S2x1000000_S1x1000000_0_0) shapeCasts_S1x1000000_S1000000

/-- The second row of the edge list: the rows to add into. -/
def dstIdx (ei : IVec S2x1000000 32) : IVec S1000000 32 :=
  shapeCast S1000000 (extractStridedSlice S1x1000000 ![1, 0] ei slices_S2x1000000_S1x1000000_1_0) shapeCasts_S1x1000000_S1000000

/-- The rows to gather with an index below zero counted from the end. -/
def srcWrapped (ei : IVec S2x1000000 32) : IVec S1000000 32 :=
  select (cmpi .slt (srcIdx ei) (broadcastInDim S1000000 ![] bcast_S_S1000000 (constantI S_ 32 0#32)))
    (addi (srcIdx ei) (broadcastInDim S1000000 ![] bcast_S_S1000000 (constantI S_ 32 100000#32))) (srcIdx ei)

/-- The neighbour sums: the gathered rows added into a zero array at the destination rows. -/
def nsum (x : FVec F S100000x64 .f32) (ei : IVec S2x1000000 32) : FVec F S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 (dstIdx ei))
    (Host.gather gather_S100000x64_S1000000x1_S1000000x64_1_0_n_n_0_1_164 x
      (broadcastInDim S1000000x1 ![0] bcast_S1000000_S1000000x1_0 (srcWrapped ei)))

end Host

/-- A vector of sixty-four spread over the hundred thousand rows. -/
def rowVec (v : FVec Ideal S64 .f32) : FVec Ideal S100000x64 .f32 :=
  broadcastInDim S100000x64 ![0, 1] bcast_S1x64_S100000x64_0_1 (broadcastInDim S1x64 ![1] bcast_S64_S1x64_1 v)

/-- The concatenated rows times the weight matrix, plus the bias. -/
def affine (x n : FVec Ideal S100000x64 .f32) (W : FVec Ideal S128x64 .f32) (b : FVec Ideal S64 .f32) : FVec Ideal S100000x64 .f32 :=
  addf (Host.dotGeneral dot_S100000x128_S128x64_S100000x64_1_0_0_1_n_n none
      (concatenate S100000x128 1 [⟨S100000x64, x⟩, ⟨S100000x64, n⟩] concatenates_S100000x64_S100000x64_S100000x128_d1) W)
    (rowVec b)

/-- The sums of the rows, kept as a column. -/
def rowSum (X : FVec Ideal S100000x64 .f32) : FVec Ideal S100000x1 .f32 :=
  broadcastInDim S100000x1 ![0] bcast_S100000_S100000x1_0
    (Host.reduceAdd X (constant S_ .f32 0x00000000#32) reducesTo_S100000x64_S100000_d1 h_S_)

/-- A scalar spread down a column. -/
def scalarCol (s : FVec Ideal S_ .f32) : FVec Ideal S100000x1 .f32 := broadcastInDim S100000x1 ![] bcast_S_S100000x1 s

/-- A column spread over the sixty-four columns. -/
def spread (c : FVec Ideal S100000x1 .f32) : FVec Ideal S100000x64 .f32 :=
  broadcastInDim S100000x64 ![0, 1] bcast_S100000x1_S100000x64_0_1 c

/-- The column of row means. -/
def meanCol (X : FVec Ideal S100000x64 .f32) : FVec Ideal S100000x1 .f32 :=
  Host.divf (rowSum X) (scalarCol (constant S_ .f32 0x42800000#32))

/-- The array centred row by row. -/
def centred (X : FVec Ideal S100000x64 .f32) : FVec Ideal S100000x64 .f32 := subf X (spread (meanCol X))

/-- The variance helper's divisor: sixty-four less the converted integer zero. -/
def count : FVec Ideal S_ .f32 := subf (constant S_ .f32 0x42800000#32) (sitofp .f32 (constantI S_ 32 0#32))

/-- The column of row variances, as the helper returns it. -/
def varCol (X : FVec Ideal S100000x64 .f32) : FVec Ideal S100000x1 .f32 :=
  select (broadcastInDim S100000x1 ![] bcast_S_S100000x1 (cmpf .ogt count (constant S_ .f32 0x00000000#32)))
    (Host.divf (rowSum (mulf (centred X) (centred X))) (scalarCol count))
    (scalarCol (id (constant S_ .f32 0x7FC00000#32)))

/-- The normalized array with gain and offset. -/
def out (X : FVec Ideal S100000x64 .f32) (g be : FVec Ideal S64 .f32) : FVec Ideal S100000x64 .f32 :=
  addf (mulf (mulf (centred X)
      (spread (Host.rsqrt (addf (varCol X) (scalarCol (constant S_ .f32 0x3727C5AC#32)))))) (rowVec g)) (rowVec be)

end Cert.ReferenceIdeal.Whole

end
-- ==== Proof.RefValue.lean ====
/-
  The reference's result buffer read back.

  In the contents the reference's line of operations ends at, every operation's equation holds, so the result buffer
  is the composition of the stages: the neighbour sums, the affine image, the layer normalization.
-/
import proofs.«174950_j36026185678969_1_alg».proof.Proof.RefLine
import proofs.«174950_j36026185678969_1_alg».proof.Proof.RefStages

noncomputable section

namespace Cert.ReferenceIdeal.Whole

open Cert.ReferenceIdeal Cert.ReferenceIdeal.Gen Cert.ReferenceIdeal.Line Idealize.ShloMosaic Idealize.ShloMosaic.TcCoe Idealize.SL.Sem
open Idealize.ShloMosaic.StableHlo

/-! ## The stage equations -/

section Stages

variable (V : Valuation τ sig (Elt Ideal))

local notation "A" => after (ops (F := Ideal)) V

/-- Operation `i`'s equation in the final contents. -/
theorem stage (i : Nat) (h : i < (ops (F := Ideal)).length) (b : DevRef τ sig) (hb : b ∈ ((ops (F := Ideal))[i]).writes) :
    A b = ((ops (F := Ideal))[i]).result A b :=
  (staged (F := Ideal)).after_eq V _ (List.getElem_mem h) b hb

/-- An argument buffer keeps its launch contents. -/
theorem arg_eq (b : Ref sig .tc) (hb : rk (b : DevRef τ sig) < 6) : A b = V b :=
  (staged (F := Ideal)).after_of_lt V hb

end Stages

/-! ## The result buffer read back -/

/-- Operation `i`'s equation in the final contents, with the operation's function spelt out. -/
macro "stage_hyp" n:ident V:term:max i:num y:term:max : tactic => `(tactic| (
  have $n := stage $V $i (by decide) $y (Finset.mem_singleton_self _)
  simp only [List.getElem_cons_succ, List.getElem_cons_zero] at $n:ident
  first
    | rw [nullary_result] at $n:ident
    | rw [unary_result] at $n:ident
    | rw [binary_result] at $n:ident
    | rw [ternary_result] at $n:ident
    | rw [reshape_result] at $n:ident
  try dsimp only [TRef.of] at $n:ident))

section Chain

variable (V : Valuation τ sig (Elt Ideal))

local notation "A" => after (ops (F := Ideal)) V

set_option maxHeartbeats 4000000 in
/-- The neighbour sums in the final contents. -/
theorem nsum_eq : (A main_v13 : S100000x64.Idx → EReal) = nsum (F := Ideal) (V main_arg0) (V main_arg1) := by
  have a0 := arg_eq V main_arg0 (by decide)
  have a1 := arg_eq V main_arg1 (by decide)
  stage_hyp e0 V 0 main_v0
  stage_hyp e1 V 1 main_v1
  stage_hyp e2 V 2 main_v2
  stage_hyp e3 V 3 main_v3
  stage_hyp e4 V 4 main_c
  stage_hyp e5 V 5 main_v4
  stage_hyp e6 V 6 main_v5
  stage_hyp e7 V 7 main_c_0
  stage_hyp e8 V 8 main_v6
  stage_hyp e9 V 9 main_v7
  stage_hyp e10 V 10 main_v8
  stage_hyp e11 V 11 main_v9
  stage_hyp e12 V 12 main_v10
  stage_hyp e13 V 13 main_cst
  stage_hyp e14 V 14 main_v11
  stage_hyp e15 V 15 main_v12
  stage_hyp e16 V 16 main_v13
  rw [e16, e15, e14, e13, e12, e11, e10, e9, e8, e7, e6, e5, e4, e3, e2, e1, e0, a0, a1]
  rfl

set_option maxHeartbeats 4000000 in
/-- The affine image in the final contents. -/
theorem affine_eq :
    (A main_v18 : S100000x64.Idx → EReal)
      = affine (V main_arg0) (nsum (F := Ideal) (V main_arg0) (V main_arg1)) (V main_arg2) (V main_arg3) := by
  have a0 := arg_eq V main_arg0 (by decide)
  have a2 := arg_eq V main_arg2 (by decide)
  have a3 := arg_eq V main_arg3 (by decide)
  stage_hyp e17 V 17 main_v14
  stage_hyp e18 V 18 main_v15
  stage_hyp e19 V 19 main_v16
  stage_hyp e20 V 20 main_v17
  stage_hyp e21 V 21 main_v18
  rw [e21, e20, e19, e18, e17, nsum_eq V, a0, a2, a3]
  rfl

set_option maxHeartbeats 8000000 in
/-- The result buffer in the final contents, over the affine image. -/
theorem out_eq : (A main_v36 : S100000x64.Idx → EReal) = out (A main_v18) (V main_arg4) (V main_arg5) := by
  have a4 := arg_eq V main_arg4 (by decide)
  have a5 := arg_eq V main_arg5 (by decide)
  stage_hyp e22 V 22 main_cst_1
  stage_hyp e23 V 23 main_v19
  stage_hyp e24 V 24 main_v20
  stage_hyp e25 V 25 main_cst_2
  stage_hyp e26 V 26 main_v21
  stage_hyp e27 V 27 main_v22
  stage_hyp e28 V 28 main_c_3
  stage_hyp e29 V 29 main_call0_cst
  stage_hyp e30 V 30 main_call0_v0
  stage_hyp e31 V 31 main_call0_v1
  stage_hyp e32 V 32 main_call0_cst_0
  stage_hyp e33 V 33 main_call0_v2
  stage_hyp e34 V 34 main_call0_v3
  stage_hyp e35 V 35 main_call0_v4
  stage_hyp e36 V 36 main_call0_v5
  stage_hyp e37 V 37 main_call0_v6
  stage_hyp e38 V 38 main_call0_v7
  stage_hyp e39 V 39 main_call0_cst_1
  stage_hyp e40 V 40 main_call0_v8
  stage_hyp e41 V 41 main_call0_cst_2
  stage_hyp e42 V 42 main_call0_v9
  stage_hyp e43 V 43 main_call0_v10
  stage_hyp e44 V 44 main_call0_v11
  stage_hyp e45 V 45 main_call0_v12
  stage_hyp e46 V 46 main_call0_cst_3
  stage_hyp e47 V 47 main_call0_v13
  stage_hyp e48 V 48 main_call0_cst_4
  stage_hyp e49 V 49 main_call0_call0_v0
  stage_hyp e50 V 50 main_call0_call0_v1
  stage_hyp e51 V 51 main_v23
  stage_hyp e52 V 52 main_v24
  stage_hyp e53 V 53 main_v25
  stage_hyp e54 V 54 main_cst_4
  stage_hyp e55 V 55 main_v26
  stage_hyp e56 V 56 main_v27
  stage_hyp e57 V 57 main_v28
  stage_hyp e58 V 58 main_v29
  stage_hyp e59 V 59 main_v30
  stage_hyp e60 V 60 main_v31
  stage_hyp e61 V 61 main_v32
  stage_hyp e62 V 62 main_v33
  stage_hyp e63 V 63 main_v34
  stage_hyp e64 V 64 main_v35
  stage_hyp e65 V 65 main_v36
  rw [e65, e64, e63, e62, e61, e60, e59, e58, e57, e56, e55, e54, e53, e52, e51, e50, e49, e48, e47, e46, e45, e44, e43, e42, e41, e40, e39, e38, e37, e36, e35, e34, e33, e32, e31, e30, e29, e28, e27, e26, e25, e24, e23, e22, a4, a5]
  rfl

/-- The result buffer in the final contents as the stages' composed function of the launch contents. -/
theorem result_eq :
    (A main_v36 : S100000x64.Idx → EReal)
      = out (affine (V main_arg0) (nsum (F := Ideal) (V main_arg0) (V main_arg1)) (V main_arg2) (V main_arg3))
          (V main_arg4) (V main_arg5) := by
  rw [out_eq, affine_eq]

end Chain

end Cert.ReferenceIdeal.Whole

end
-- ==== Proof.LibBroadcastInDim.lean ====
/-
  `broadcast_in_dim` between vectors, columns, rows and matrices, read at an index (any sizes, any element type).

  * an `[a]` vector placed along axis 0 of `[a, 1]`: entry `(i, u)` is the vector's entry `i`;
  * an `[a, 1]` column spread to `[a, b]`: entry `(i, j)` is the column's entry `(i, 0)`;
  * a `[b]` vector placed along axis 1 of `[1, b]`: entry `(u, j)` is the vector's entry `j`;
  * a `[1, b]` row spread to `[a, b]`: entry `(i, j)` is the row's entry `(0, j)`;
  * a scalar spread to any shape: every entry is the scalar.
  In each case the operand index keeps the coordinates on the axes the operand has and is zero on a unit axis
  (an axis of extent one has only the coordinate zero, so the two readings of such an axis agree).
-/
import Idealize.ShloMosaic.Lib.ValueIdx
import Idealize.ShloMosaic.Lib.Pipeline.Value

namespace Cert.LibBroadcastInDim

open Idealize.ShloMosaic Idealize.ShloMosaic.ValueIdx

variable {α : Type}

/-- An `[a]` vector placed along axis 0 of `[a, 1]` reads, at `(i, u)`, the vector at `i`. -/
theorem vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column spread to `[a, b]` reads, at `(i, j)`, the column at `(i, 0)`. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` vector placed along axis 1 of `[1, b]` reads, at `(u, j)`, the vector at `j`. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A `[1, b]` row spread to `[a, b]` reads, at `(i, j)`, the row at `(0, j)`. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread to any shape reads the scalar at every index. -/
theorem scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply _ h x j k fun ax => ax.elim0

end Cert.LibBroadcastInDim
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibSumSplit.lean ====
/-
  A finite sum over `Fin c` with `c = a + b` is the sum over its first `a` positions plus the sum over its last `b`.

  This is the law by which a matrix product against a matrix whose rows are two blocks laid one over the other is the
  sum of the two products against the blocks.
-/
import Mathlib.Algebra.BigOperators.Fin

namespace Cert.LibSumSplit

open scoped BigOperators

/-- The sum over `Fin c`, `c = a + b`, split at `a`: position `k < a` on the left, position `a + k` on the right. -/
theorem sum_split {M : Type} [AddCommMonoid M] (a b c : Nat) (h : c = a + b) (f : Fin c → M) :
    ∑ k : Fin c, f k
      = (∑ k : Fin a, f ⟨k.val, by have := k.isLt; omega⟩) + ∑ k : Fin b, f ⟨a + k.val, by have := k.isLt; omega⟩ := by
  subst h
  exact Fin.sum_univ_add f

end Cert.LibSumSplit
-- ==== Proof.RefRow.lean ====
/-
  The reference's stages read at an index.

  A host sum from the zero word is the plain sum over the row; a scalar, a column and a vector spread by broadcasting
  read the scalar, the column's entry of the row and the vector's entry of the column; the product of the concatenated
  row with the weight matrix is the sum over its first sixty-four columns, where the row is `x`'s, plus the sum over its
  last sixty-four, where it is the neighbour sums'; the variance helper's comparison `64 - 0 > 0` is true, so its
  selection keeps the quotient of the sum of squares by `64 - 0 = 64`. Row by row the composed stages are `RowNorm.G`.
-/
import proofs.«174950_j36026185678969_1_alg».proof.Proof.RefStages
import proofs.«174950_j36026185678969_1_alg».proof.Proof.RowNorm
import proofs.«174950_j36026185678969_1_alg».proof.Proof.LibBroadcastInDim
import proofs.«174950_j36026185678969_1_alg».proof.Proof.LibPlainDot
import proofs.«174950_j36026185678969_1_alg».proof.Proof.LibSumSplit
import Idealize.ShloMosaic.Lib.ValueLayout
import Idealize.ShloMosaic.Lib.Pipeline.Value
import Idealize.ShloMosaic.PureOps.Ideal.Laws

noncomputable section

namespace Cert.ReferenceIdeal.Whole

open Cert.ReferenceIdeal Cert.ReferenceIdeal.Gen Idealize.ShloMosaic Idealize.ShloMosaic.ValueIdx Cert.RowNorm
open scoped BigOperators

theorem rowVec_apply (v : FVec Ideal S64 .f32) (i : Fin 100000) (q : Fin 64) : rowVec v (ix2 i q) = v (ix1 q) :=
  (Cert.LibBroadcastInDim.row_mat_apply _ bcast_S1x64_S100000x64_0_1 i q).trans
    (Cert.LibBroadcastInDim.vec_row_apply v bcast_S64_S1x64_1 0 q)

theorem scalarCol_apply (s : FVec Ideal S_ .f32) (i : Fin 100000) (u : Fin 1) : scalarCol s (ix2 i u) = s ix0 :=
  Cert.LibBroadcastInDim.scalar_apply s bcast_S_S100000x1 (ix2 i u) ix0

theorem spread_apply (c : FVec Ideal S100000x1 .f32) (i : Fin 100000) (q : Fin 64) : spread c (ix2 i q) = c (ix2 i (0 : Fin 1)) :=
  Cert.LibBroadcastInDim.col_mat_apply c bcast_S100000x1_S100000x64_0_1 i q

theorem rowSum_apply (X : FVec Ideal S100000x64 .f32) (i : Fin 100000) (u : Fin 1) :
    rowSum X (ix2 i u) = ∑ j : Fin 64, X (ix2 i j) := by
  refine (Cert.LibBroadcastInDim.vec_col_apply _ bcast_S100000_S100000x1_0 i u).trans ?_
  have hR : S100000x64.Reduces [1] S100000 := by decide
  show Ideal.hostReduceAdd reducesTo_S100000x64_S100000_d1 X (Ideal.ofBits .f32 0x00000000#32) (ix1 i) = _
  rw [Ideal.hostReduceAdd_single reducesTo_S100000x64_S100000_d1 hR, Ideal.ofBits_zero_f32, zero_add]
  refine Finset.sum_congr rfl fun j _ => congrArg X ?_
  funext c; apply Fin.ext
  match c with
  | ⟨0, _⟩ => rfl
  | ⟨1, _⟩ => rfl

theorem meanCol_apply (X : FVec Ideal S100000x64 .f32) (i : Fin 100000) (u : Fin 1) :
    meanCol X (ix2 i u) = mean (fun j => X (ix2 i j)) := by
  show Ideal.div (rowSum X (ix2 i u)) (scalarCol (constant S_ .f32 0x42800000#32) (ix2 i u)) = _
  rw [rowSum_apply, scalarCol_apply]; rfl

theorem centred_apply (X : FVec Ideal S100000x64 .f32) (i : Fin 100000) (q : Fin 64) :
    centred X (ix2 i q) = dev (fun j => X (ix2 i j)) q := by
  show X (ix2 i q) - spread (meanCol X) (ix2 i q) = _
  rw [spread_apply, meanCol_apply]; rfl

/-- The variance helper's divisor at its one index. -/
theorem count_apply : count ix0 = c64 - (((0#32 : BitVec 32).toInt : ℝ) : EReal) := rfl

theorem varCol_apply (X : FVec Ideal S100000x64 .f32) (i : Fin 100000) (u : Fin 1) :
    varCol X (ix2 i u) = var (fun j => X (ix2 i j)) := by
  have hc : broadcastInDim S100000x1 ![] bcast_S_S100000x1 (cmpf .ogt count (constant S_ .f32 0x00000000#32)) (ix2 i u) = 1#1 :=
    (Cert.LibBroadcastInDim.scalar_apply _ bcast_S_S100000x1 (ix2 i u) ix0).trans cmp_c64_pos
  show Scalar.select (broadcastInDim S100000x1 ![] bcast_S_S100000x1 (cmpf .ogt count (constant S_ .f32 0x00000000#32)) (ix2 i u))
      (Ideal.div (rowSum (mulf (centred X) (centred X)) (ix2 i u)) (scalarCol count (ix2 i u)))
      (scalarCol (id (constant S_ .f32 0x7FC00000#32)) (ix2 i u)) = _
  rw [hc, select_one, rowSum_apply, scalarCol_apply, count_apply, c64_sub_zero]
  have e : (∑ j : Fin 64, mulf (centred X) (centred X) (ix2 i j))
      = ∑ j : Fin 64, dev (fun j => X (ix2 i j)) j * dev (fun j => X (ix2 i j)) j :=
    Finset.sum_congr rfl fun j _ => by
      show centred X (ix2 i j) * centred X (ix2 i j) = _
      rw [centred_apply]
  rw [e]; rfl

theorem out_apply (X : FVec Ideal S100000x64 .f32) (g be : FVec Ideal S64 .f32) (i : Fin 100000) (q : Fin 64) :
    out X g be (ix2 i q) = norm (fun j => X (ix2 i j)) (fun j => g (ix1 j)) (fun j => be (ix1 j)) q := by
  show centred X (ix2 i q) * spread (Host.rsqrt (addf (varCol X) (scalarCol (constant S_ .f32 0x3727C5AC#32)))) (ix2 i q)
      * rowVec g (ix2 i q) + rowVec be (ix2 i q) = _
  rw [centred_apply, spread_apply, rowVec_apply, rowVec_apply]
  show dev (fun j => X (ix2 i j)) q
      * Ideal.rsqrt (varCol X (ix2 i (0 : Fin 1)) + scalarCol (constant S_ .f32 0x3727C5AC#32) (ix2 i (0 : Fin 1)))
      * g (ix1 q) + be (ix1 q) = _
  rw [varCol_apply, scalarCol_apply]; rfl

theorem affine_apply (x n : FVec Ideal S100000x64 .f32) (W : FVec Ideal S128x64 .f32) (b : FVec Ideal S64 .f32)
    (i : Fin 100000) (q : Fin 64) :
    affine x n W b (ix2 i q) = lin (fun k => x (ix2 i k)) (fun k => n (ix2 i k)) W (fun q => b (ix1 q)) q := by
  show FloatOps.dotGeneral dot_S100000x128_S128x64_S100000x64_1_0_0_1_n_n none .single
      (concatenate S100000x128 1 [⟨S100000x64, x⟩, ⟨S100000x64, n⟩] concatenates_S100000x64_S100000x64_S100000x128_d1) W (ix2 i q)
      + rowVec b (ix2 i q) = _
  rw [rowVec_apply,
    Cert.LibPlainDot.dotGeneral_apply (A := 100000) (K := 128) (B := 64) dot_S100000x128_S128x64_S100000x64_1_0_0_1_n_n rfl rfl rfl rfl rfl rfl,
    Cert.LibSumSplit.sum_split 64 64 128 rfl]
  have eL : ∀ k : Fin 64, concatenate S100000x128 1 [⟨S100000x64, x⟩, ⟨S100000x64, n⟩] concatenates_S100000x64_S100000x64_S100000x128_d1
      (ix2 i (⟨k.val, by have := k.isLt; omega⟩ : Fin 128)) = x (ix2 i k) := fun k =>
    concatenate_pair_apply_left (t := S100000x128) (s₁ := S100000x64) (s₂ := S100000x64) (1 : Fin 2) x n
      concatenates_S100000x64_S100000x64_S100000x128_d1 (ix2 i (⟨k.val, by have := k.isLt; omega⟩ : Fin 128)) rfl (ix2 i k)
      (fun b => match b with | ⟨0, _⟩ => rfl | ⟨1, _⟩ => rfl)
  have eR : ∀ k : Fin 64, concatenate S100000x128 1 [⟨S100000x64, x⟩, ⟨S100000x64, n⟩] concatenates_S100000x64_S100000x64_S100000x128_d1
      (ix2 i (⟨64 + k.val, by have := k.isLt; omega⟩ : Fin 128)) = n (ix2 i k) := fun k =>
    concatenate_pair_apply_right (t := S100000x128) (s₁ := S100000x64) (s₂ := S100000x64) (1 : Fin 2) x n
      concatenates_S100000x64_S100000x64_S100000x128_d1 (ix2 i (⟨64 + k.val, by have := k.isLt; omega⟩ : Fin 128)) rfl rfl (ix2 i k)
      (fun b hb => match b, hb with | ⟨0, _⟩, _ => rfl | ⟨1, _⟩, hb => absurd rfl hb)
      (by show k.val + 64 = 64 + k.val; omega)
  simp only [eL, eR]
  rfl

/-- The composed stages are the row-by-row specification. -/
theorem out_affine_eq (x n : FVec Ideal S100000x64 .f32) (W : FVec Ideal S128x64 .f32) (b g be : FVec Ideal S64 .f32) :
    out (affine x n W b) g be = RowNorm.G x n W b g be := by
  funext j
  obtain ⟨i, q, rfl⟩ : ∃ (i : Fin 100000) (q : Fin 64), j = ix2 i q := ⟨j 0, j 1, eq_ix2 j⟩
  rw [out_apply]
  have e : (fun j => affine x n W b (ix2 i j)) = lin (fun k => x (ix2 i k)) (fun k => n (ix2 i k)) W (fun q => b (ix1 q)) :=
    funext fun j => affine_apply x n W b i j
  rw [e]; rfl

end Cert.ReferenceIdeal.Whole

end
-- ==== Proof.RefRun.lean ====
/-
  The reference's run: every weakly fair execution ends with the result buffer at `RowNorm.G` of the arguments and the
  neighbour sums, the arguments unchanged.
-/
import proofs.«174950_j36026185678969_1_alg».proof.Proof.RefValue
import proofs.«174950_j36026185678969_1_alg».proof.Proof.RefRow

noncomputable section

namespace Cert.ReferenceIdeal.Whole

open Cert.ReferenceIdeal Cert.ReferenceIdeal.Gen Cert.ReferenceIdeal.Line Idealize.ShloMosaic Idealize.ShloMosaic.TcCoe Idealize.SL.Sem
open Idealize.ShloMosaic.StableHlo

variable (m : (ℓ : Loc nD τ sig) → Buf (Elt Ideal) ℓ) (ρ : Dev nD → PrngReg)

/-- The arguments as launched on core `c`, at their array types. -/
abbrev ax (c : Dev nD) : FVec Ideal S100000x64 .f32 := m ((c.tc : Thread nD τ).loc main_arg0)
abbrev ae (c : Dev nD) : IVec S2x1000000 32 := m ((c.tc : Thread nD τ).loc main_arg1)
abbrev aw (c : Dev nD) : FVec Ideal S128x64 .f32 := m ((c.tc : Thread nD τ).loc main_arg2)
abbrev ab (c : Dev nD) : FVec Ideal S64 .f32 := m ((c.tc : Thread nD τ).loc main_arg3)
abbrev ag (c : Dev nD) : FVec Ideal S64 .f32 := m ((c.tc : Thread nD τ).loc main_arg4)
abbrev abe (c : Dev nD) : FVec Ideal S64 .f32 := m ((c.tc : Thread nD τ).loc main_arg5)

/-- The array the reference ends with on core `c`. -/
abbrev Gr (c : Dev nD) : S100000x64.Idx → EReal :=
  RowNorm.G (ax m c) (nsum (ax m c) (ae m c)) (aw m c) (ab m c) (ag m c) (abe m c)

theorem run : θ_run defs (onTc (τ := τ) (main (F := Ideal))) ⟨m, fun _ => 0, ρ⟩ fun r => ∀ c : Dev nD,
      r.2.mem ((c.tc : Thread nD τ).loc main_v36) = Gr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨(h c main_v36).trans ((result_eq (launchContents m c)).trans
          (out_affine_eq (ax m c) (nsum (ax m c) (ae m c)) (aw m c) (ab m c) (ag m c) (abe m c))),
        (h c main_arg0).trans (arg_eq (launchContents m c) main_arg0 (by decide)),
        (h c main_arg1).trans (arg_eq (launchContents m c) main_arg1 (by decide)),
        (h c main_arg2).trans (arg_eq (launchContents m c) main_arg2 (by decide)),
        (h c main_arg3).trans (arg_eq (launchContents m c) main_arg3 (by decide)),
        (h c main_arg4).trans (arg_eq (launchContents m c) main_arg4 (by decide)),
        (h c main_arg5).trans (arg_eq (launchContents m c) main_arg5 (by decide))⟩)
    (Line.run_main m ρ)

end Cert.ReferenceIdeal.Whole

end
-- ==== Proof.lean ====
/-
  The kernel computes what the reference computes, over the extended reals.

  Both programs first gather the rows of `x` named by the first row of the edge list and add them into a zero array at the
  rows the second row names: the neighbour sums `n`. The reference concatenates `x` and `n` along the columns, multiplies
  by the `128 × 64` weight matrix, adds the bias and normalizes each row: `(h - mean) · (var + ε)^(-1/2) · γ + β`, the mean
  and the variance being sums over the sixty-four entries divided by sixty-four. The kernel stages blocks of two
  thousand rows of `x` and `n`, multiplies each by its half of the weight matrix and adds the two products — the sum over
  the hundred and twenty-eight concatenated columns split at sixty-four, an identity of finite sums in any commutative
  monoid, so no finiteness of the inputs is used — and normalizes the same way; the fifty blocks tile the rows. A change
  of float format is the identity on extended reals, so the kernel's half-precision operands change nothing. Each
  program's result array is therefore `RowNorm.G` of the arguments and the neighbour sums, and the two neighbour sums are
  one function of the two programs' agreeing arguments. The two kernel frames are the generated ones; the reference's
  frame is its run with the result forgotten; no rewrite was applied in idealizing the kernel.
-/
import proofs.«174950_j36026185678969_1_alg».proof.Defs
import proofs.«174950_j36026185678969_1_alg».proof.Proof.Gen.Kernel
import proofs.«174950_j36026185678969_1_alg».proof.Proof.Gen.Kernel.Skeleton
import proofs.«174950_j36026185678969_1_alg».proof.Proof.Gen.Kernel.Launch
import proofs.«174950_j36026185678969_1_alg».proof.Proof.Gen.Kernel.Points
import proofs.«174950_j36026185678969_1_alg».proof.Proof.Gen.Kernel.Frame
import proofs.«174950_j36026185678969_1_alg».proof.Proof.Gen.KernelIdeal
import proofs.«174950_j36026185678969_1_alg».proof.Proof.Gen.KernelIdeal.Skeleton
import proofs.«174950_j36026185678969_1_alg».proof.Proof.Gen.KernelIdeal.Launch
import proofs.«174950_j36026185678969_1_alg».proof.Proof.Gen.KernelIdeal.Points
import proofs.«174950_j36026185678969_1_alg».proof.Proof.Gen.KernelIdeal.Frame
import proofs.«174950_j36026185678969_1_alg».proof.Proof.Gen.KernelIdeal.Value
import proofs.«174950_j36026185678969_1_alg».proof.Proof.Gen.ReferenceIdeal
import proofs.«174950_j36026185678969_1_alg».proof.Proof.Gen.Pre_finite_inputs
import proofs.«174950_j36026185678969_1_alg».proof.Proof.KernelArray
import proofs.«174950_j36026185678969_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result forgotten. -/
theorem frame_referenceIdeal : Cert.frame_ReferenceIdeal := fun m ρ _ =>
  (θ_run Cert.ReferenceIdeal.defs _ _).mono (fun _ h c => (h c).2) (Cert.ReferenceIdeal.Whole.run m ρ)

/-- The neighbour sums of the two programs are one function: the same gather and scatter-add with the same dimension
    numbers over the same shapes. -/
theorem nsum_eq (x : FVec Ideal Cert.KernelIdeal.S100000x64 .f32) (ei : IVec Cert.KernelIdeal.S2x1000000 32) :
    Cert.ReferenceIdeal.Whole.nsum (F := Ideal) x ei = Cert.KernelIdeal.Whole.nsum (F := Ideal) x ei := rfl

/-- From memories agreeing on the arguments both programs end with `RowNorm.G` of the arguments and the neighbour sums. -/
theorem algebraic : Cert.algebraic_KernelIdeal_ReferenceIdeal := by
  intro m ρ m' ρ' _ hagree
  refine ⟨fun c => Cert.KernelIdeal.Whole.Gk m c, Cert.KernelIdeal.Whole.run m ρ, ?_⟩
  refine (θ_run Cert.ReferenceIdeal.defs _ _).mono (fun r h c => ⟨(h c).1.trans ?_, (h c).2⟩)
    (Cert.ReferenceIdeal.Whole.run m' ρ')
  obtain ⟨h0, h1, h2, h3, h4, h5⟩ := hagree c
  show RowNorm.G (Cert.ReferenceIdeal.Whole.ax m' c)
      (Cert.ReferenceIdeal.Whole.nsum (Cert.ReferenceIdeal.Whole.ax m' c) (Cert.ReferenceIdeal.Whole.ae m' c))
      (Cert.ReferenceIdeal.Whole.aw m' c) (Cert.ReferenceIdeal.Whole.ab m' c) (Cert.ReferenceIdeal.Whole.ag m' c)
      (Cert.ReferenceIdeal.Whole.abe m' c) = _
  have e0 : Cert.ReferenceIdeal.Whole.ax m' c = Cert.KernelIdeal.Whole.ax m c := h0
  have e1 : Cert.ReferenceIdeal.Whole.ae m' c = Cert.KernelIdeal.Whole.ae m c := h1
  have e2 : Cert.ReferenceIdeal.Whole.aw m' c = Cert.KernelIdeal.Whole.aw m c := h2
  have e3 : Cert.ReferenceIdeal.Whole.ab m' c = Cert.KernelIdeal.Whole.ab m c := h3
  have e4 : Cert.ReferenceIdeal.Whole.ag m' c = Cert.KernelIdeal.Whole.ag m c := h4
  have e5 : Cert.ReferenceIdeal.Whole.abe m' c = Cert.KernelIdeal.Whole.abe m c := h5
  rw [e0, e1, e2, e3, e4, e5, nsum_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
